-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S32768x64 : Shape := ⟨2, ![32768, 64]⟩
abbrev S32x1x64 : Shape := ⟨3, ![32, 1, 64]⟩
abbrev S_ : Shape := ⟨0, ![]⟩
abbrev S1024x4096 : Shape := ⟨2, ![1024, 4096]⟩
abbrev S1024x64 : Shape := ⟨2, ![1024, 64]⟩
abbrev S1x1x64 : Shape := ⟨3, ![1, 1, 64]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S4096x64, .bf16⟩
  | .hbm, ⟨5, _⟩ => ⟨S1x64, .f32⟩
  | .hbm, ⟨6, _⟩ => ⟨S32768x64, .f32⟩
  | .hbm, ⟨7, _⟩ => ⟨S32x1x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S4096x64, .bf16⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1x1x64, .f32⟩
  | .local _ .vmem, ⟨7, _⟩ => ⟨S1x1x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_v3_1 : Ref sig .tc := ⟨.hbm, 7, rfl⟩
abbrev main_call0_cst : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x4096_S4096x64_1_0 : S64x4096.Transposes [1, 0] S4096x64
  bitsLt_bf16_f32 : FTy.bits .bf16 < FTy.bits .f32
  shapeCasts_S64_S1x64 : S64.ShapeCasts S1x64
  reducesTo_S32x1x64_S_d0_1_2 : S32x1x64.ReducesTo [0, 1, 2] S_
  h_S_ : 0 < S_.numel
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  reduces_S1024x64_S64 : S1024x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S32x1x64.size a
  hwx0_4 : ∀ i : grid0.Coords, EltTy.bits .f32 = 32 ∨ (Rect.block (s := S32x1x64) S1x1x64.size (cc0_transform_4 i) (hinb0_4 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 34
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | .hbm, ⟨22, _⟩ => ⟨S_, .f32⟩
  | .hbm, ⟨23, _⟩ => ⟨S32768x64, .f32⟩
  | .hbm, ⟨24, _⟩ => ⟨S32768x64, .f32⟩
  | .hbm, ⟨25, _⟩ => ⟨S32768x64, .f32⟩
  | .hbm, ⟨26, _⟩ => ⟨S32768x64, .f32⟩
  | .hbm, ⟨27, _⟩ => ⟨S_, .f32⟩
  | .hbm, ⟨28, _⟩ => ⟨S32768, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S_S32768x64 : S_.BroadcastsInDim S32768x64 (![] : Fin 0 → Fin S32768x64.rank)
  reducesTo_S32768_S_d0 : S32768.ReducesTo [0] S_
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The router's mathematics, stated once over the extended reals and free of either program's text.

  For a token's feature row `xr` (4096 entries), a weight matrix `W` (64 experts × 4096 features) and a bias `b`:
    logit j = (∑ k, xr k · W[j,k]) + b[j]
    prob j  = exp (logit j − max_j logit j) / ∑ j exp (logit j − max_j logit j)        (a softmax over the 64 experts)
    plogp j = prob j · log (prob j + ε)
  The first result holds `prob` for every token and expert; the second is the mean over the 32768 tokens of the
  row entropies, −(∑ tokens ∑ experts plogp) / 32768. The maximum is a fold of `max` from −∞ over the experts,
  which is how both programs compute it.
-/
import Idealize.ShloMosaic.PureOps.Ideal
import Idealize.ShloMosaic.PureOps.Ideal.Laws
import Idealize.ShloMosaic.Lib.ValueIdx
import proofs.«121930_g46153718563472_cont_8to1_c_400_9_alg».proof.Proof.LibSumBlocks

noncomputable section

namespace Cert.SwitchGate

open Idealize.ShloMosaic Idealize.ShloMosaic.ValueIdx

/-- The weights as given: one row of 4096 features per expert. -/
abbrev WShape : Shape := ⟨2, ![64, 4096]⟩
/-- The bias: one entry per expert. -/
abbrev BShape : Shape := ⟨1, ![64]⟩
/-- The tokens: 32768 rows of 4096 features. -/
abbrev XShape : Shape := ⟨2, ![32768, 4096]⟩
/-- The probabilities: one row of 64 per token. -/
abbrev PShape : Shape := ⟨2, ![32768, 64]⟩
/-- The partial sums: for each of the 32 token blocks, one row of 64. -/
abbrev PartShape : Shape := ⟨3, ![32, 1, 64]⟩

/-- Minus infinity, the value every running maximum starts from. -/
abbrev negInf : EReal := Ideal.ofBits .f32 0xFF800000#32
/-- The small constant added inside the logarithm (the same binary word in both programs). -/
abbrev eps : EReal := Ideal.ofBits .f32 0x3089705F#32
/-- The number of tokens, as the float constant both programs divide by. -/
abbrev nTokens : EReal := Ideal.ofBits .f32 0x47000000#32

section Row
variable (W : WShape.Idx → EReal) (b : BShape.Idx → EReal) (xr : Fin 4096 → EReal)

/-- Expert `j`'s logit for one token: the token's row against the expert's weights, plus the expert's bias. -/
def logit (j : Fin 64) : EReal := (∑ k : Fin 4096, xr k * W (ix2 j k)) + b (ix1 j)

/-- The token's largest logit, as the running maximum from −∞ over the experts. -/
def rowMax : EReal := (Finset.univ : Finset (Fin 64)).fold max negInf (logit W b xr)

/-- The shifted exponential of expert `j`'s logit. -/
def expo (j : Fin 64) : EReal := Ideal.exp (logit W b xr j - rowMax W b xr)

/-- The softmax's denominator. -/
def denom : EReal := ∑ j : Fin 64, expo W b xr j

/-- The probability the router gives expert `j` for this token. -/
def prob (j : Fin 64) : EReal := Ideal.div (expo W b xr j) (denom W b xr)

/-- Expert `j`'s term of the token's (negated) entropy. -/
def plogp (j : Fin 64) : EReal := prob W b xr j * Ideal.log (prob W b xr j + eps)

end Row

section Whole
variable (x : XShape.Idx → EReal) (W : WShape.Idx → EReal) (b : BShape.Idx → EReal)

/-- Token `r`'s feature row. -/
def xrow (r : Fin 32768) : Fin 4096 → EReal := fun k => x (ix2 r k)

/-- The first result: every token's probabilities. -/
def probs : PShape.Idx → EReal := fun i => prob W b (xrow x (i 0)) (i 1)

/-- Row `q` of token block `t` (blocks of 1024 consecutive tokens). -/
def blockRow (t : Fin 32) (q : Fin 1024) : Fin 32768 := ⟨t.val * 1024 + q.val, by omega⟩

/-- What one token block contributes for each expert: the sum of `plogp` over the block's 1024 tokens. -/
def parts : PartShape.Idx → EReal := fun i => ∑ q : Fin 1024, plogp W b (xrow x (blockRow (i 0) q)) (i 2)

/-- The sum of every token's and expert's `plogp`. -/
def plogpTotal : EReal := ∑ r : Fin 32768, ∑ j : Fin 64, plogp W b (xrow x r) j

/-- The second result: minus the mean over the tokens. -/
def entropy : EReal := -(Ideal.div (plogpTotal x W b) nTokens)

/-- The indices of the partial sums are the pairs (block, expert): the middle axis has one entry. -/
def partEquiv : PartShape.Idx ≃ Fin 32 × Fin 64 where
  toFun i := (i 0, i 2)
  invFun p := ix3 p.1 0 p.2
  left_inv i := by
    funext a
    match a with
    | ⟨0, _⟩ => rfl
    | ⟨1, _⟩ => exact Subsingleton.elim (α := Fin 1) _ _
    | ⟨2, _⟩ => rfl
  right_inv p := rfl

/-- Adding the per-block partial sums over all blocks and experts adds every token's and expert's term once:
    the tokens are the disjoint union of the 32 blocks of 1024, and the order of a finite sum on the extended reals
    does not matter (addition there is commutative and associative, also at the infinities). -/
theorem sum_parts : ∑ i : PartShape.Idx, parts x W b i = plogpTotal x W b := by
  unfold plogpTotal parts
  rw [← Equiv.sum_comp (partEquiv).symm, Fintype.sum_prod_type]
  show ∑ t : Fin 32, ∑ j : Fin 64, ∑ q : Fin 1024, plogp W b (xrow x (blockRow t q)) j = _
  rw [Fin.sum_rowMajor2 32 1024 (fun r : Fin (32 * 1024) => ∑ j : Fin 64, plogp W b (xrow x r) j)]
  refine Finset.sum_congr rfl fun t _ => ?_
  rw [Finset.sum_comm]
  rfl

end Whole

end Cert.SwitchGate

end
-- ==== Proof.KernelBody.lean ====
/-
  The kernel body's two stored values, read at an index, in the router's own terms (Spec.lean).

  The body holds one block of 1024 tokens `x0`, the transposed weights `x1` (features × experts) and the bias as a
  one-row matrix `x2`. Its first store is the softmax of each token's logits; its second the sum, down the block's
  1024 tokens, of prob · log (prob + ε), one entry per expert.
-/
import proofs.«121930_g46153718563472_cont_8to1_c_400_9_alg».proof.Proof.Gen.KernelIdeal.Skeleton
import proofs.«121930_g46153718563472_cont_8to1_c_400_9_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.SwitchGate

/-! ## The layout steps of a kept-dimension reduction, read at an index -/

section Layout
variable {α : Type}

/-- A vector of 1024 entries viewed as a column and copied along 64 lanes reads, at (q, j), entry q. -/
theorem column_bcast_apply (u : S1024.Idx → α) (hc : S1024.ShapeCasts S1024x1) (hb : S1024x1.Broadcasts S1024x64)
    (q : Fin 1024) (j : Fin 64) :
    broadcastTo S1024x64 (shapeCast S1024x1 u hc) hb (ix2 q j) = u (ix1 q) := by
  refine (broadcastTo_apply (shapeCast S1024x1 u hc) hb (ix2 q j) (ix2 q (0 : Fin 1)) fun a => ?_).trans ?_
  · match a with
    | ⟨0, _⟩ => show q.val = if (1024 : Nat) = 1 then 0 else q.val; rw [if_neg (by decide)]
    | ⟨1, _⟩ => show 0 = if (1 : Nat) = 1 then 0 else j.val; rw [if_pos rfl]
  · refine shapeCast_apply u hc (ix2 q (0 : Fin 1)) (ix1 q) ?_
    rw [Shape.rowMajor_val_one, Shape.rowMajor_val_two]
    show q.val = q.val * 1 + 0
    omega

/-- A vector of 64 entries viewed as a one-row matrix and then as a [1, 1, 64] array reads, at (0, 0, j), entry j. -/
theorem unit_unit_cast_apply (u : S64.Idx → α) (h1 : S64.ShapeCasts S1x64) (h2 : S1x64.ShapeCasts S1x1x64) (j : Fin 64) :
    shapeCast S1x1x64 (shapeCast S1x64 u h1) h2 (ix3 (0 : Fin 1) (0 : Fin 1) j) = u (ix1 j) :=
  (shapeCast_ab_1ab_apply (shapeCast S1x64 u h1) h2 0 0 j).trans (shapeCast_a_1a_apply u h1 0 j)

end Layout

/-! ## The reductions, read at an index -/

section Reductions

/-- The index of a [1024, 64] array over row q with lane k inserted is (q, k). -/
theorem lift_row (h : S1024x64.Reduces [1] S1024) (q : Fin 1024) (k : Fin 64) : h.lift (ix1 q) k = ix2 q k :=
  funext fun a => Fin.ext (by
    match a with
    | ⟨0, _⟩ => rfl
    | ⟨1, _⟩ => rfl)

/-- The index of a [1024, 64] array over lane j with row k inserted is (k, j). -/
theorem lift_col (h : S1024x64.Reduces [0] S64) (j : Fin 64) (k : Fin 1024) : h.lift (ix1 j) k = ix2 k j :=
  funext fun a => Fin.ext (by
    match a with
    | ⟨0, _⟩ => rfl
    | ⟨1, _⟩ => rfl)

/-- A maximum along the lanes from −∞, at row q: the running maximum over the row's 64 entries. -/
theorem lane_max_apply (v : FVec Ideal S1024x64 .f32) (h : S1024x64.Reduces [1] S1024) (hφ : FKind.Formats .f32)
    (hacc : (0xFF800000#32 : BitVec 32) = FKind.maximumf.neutral .f32 hφ) (q : Fin 1024) :
    multiReduction (F := Ideal) .maximumf [1] S1024 v 0xFF800000#32 h hφ hacc (ix1 q)
      = (Finset.univ : Finset (Fin 64)).fold max negInf (fun j => v (ix2 q j)) := by
  refine (Ideal.multiReduction_maximumf_single v 0xFF800000#32 h hφ hacc (ix1 q)).trans ?_
  refine congrArg (fun f => (Finset.univ : Finset (Fin 64)).fold max negInf f) (funext fun k => ?_)
  exact congrArg v (lift_row h q k)

/-- A sum along the lanes, at row q: the sum of the row's 64 entries. -/
theorem lane_sum_apply (v : FVec Ideal S1024x64 .f32) (h : S1024x64.Reduces [1] S1024) (hφ : FKind.Formats .f32)
    (hacc : (0x00000000#32 : BitVec 32) = FKind.add.neutral .f32 hφ) (q : Fin 1024) :
    multiReduction (F := Ideal) .add [1] S1024 v 0x00000000#32 h hφ hacc (ix1 q) = ∑ j : Fin 64, v (ix2 q j) := by
  refine (Ideal.multiReduction_add_single v 0x00000000#32 h hφ hacc (ix1 q)).trans ?_
  exact Finset.sum_congr rfl fun k _ => congrArg v (lift_row h q k)

/-- A sum down the rows, at lane j: the sum of the column's 1024 entries. -/
theorem row_sum_apply (v : FVec Ideal S1024x64 .f32) (h : S1024x64.Reduces [0] S64) (hφ : FKind.Formats .f32)
    (hacc : (0x00000000#32 : BitVec 32) = FKind.add.neutral .f32 hφ) (j : Fin 64) :
    multiReduction (F := Ideal) .add [0] S64 v 0x00000000#32 h hφ hacc (ix1 j) = ∑ q : Fin 1024, v (ix2 q j) := by
  refine (Ideal.multiReduction_add_single v 0x00000000#32 h hφ hacc (ix1 j)).trans ?_
  exact Finset.sum_congr rfl fun k _ => congrArg v (lift_col h j k)

end Reductions

/-! ## The matrix product, read at an index -/

section Product

/-- The left operand's row coordinate is the result's row. -/
theorem lhs_axis0 (i : S1024x64.Idx) (c : dot_S1024x4096_S4096x64_S1024x64_1_0_0_1_n_n.contr.Idx) :
    (dot_S1024x4096_S4096x64_S1024x64_1_0_0_1_n_n.lhsIdx i c 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
/-- The left operand's column coordinate is the contraction index. -/
theorem lhs_axis1 (i : S1024x64.Idx) (c : dot_S1024x4096_S4096x64_S1024x64_1_0_0_1_n_n.contr.Idx) :
    (dot_S1024x4096_S4096x64_S1024x64_1_0_0_1_n_n.lhsIdx i c 1).val = (c ⟨0, by decide⟩).val :=
  dot_S1024x4096_S4096x64_S1024x64_1_0_0_1_n_n.lhsIdx_val_of_single rfl i c
/-- The right operand's row coordinate is the contraction index. -/
theorem rhs_axis0 (i : S1024x64.Idx) (c : dot_S1024x4096_S4096x64_S1024x64_1_0_0_1_n_n.contr.Idx) :
    (dot_S1024x4096_S4096x64_S1024x64_1_0_0_1_n_n.rhsIdx i c 0).val = (c ⟨0, by decide⟩).val :=
  dot_S1024x4096_S4096x64_S1024x64_1_0_0_1_n_n.rhsIdx_val_of_single rfl i c
/-- The right operand's column coordinate is the result's column. -/
theorem rhs_axis1 (i : S1024x64.Idx) (c : dot_S1024x4096_S4096x64_S1024x64_1_0_0_1_n_n.contr.Idx) :
    (dot_S1024x4096_S4096x64_S1024x64_1_0_0_1_n_n.rhsIdx i c 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl
/-- The product of a [1024, 4096] block and a [4096, 64] matrix, accumulated into zeros, at (q, j): row q against
    column j. -/
theorem product_apply (l : FVec Ideal S1024x4096 .bf16) (r : FVec Ideal S4096x64 .bf16) (q : Fin 1024) (j : Fin 64) :
    matmul dot_S1024x4096_S4096x64_S1024x64_1_0_0_1_n_n none l r (constant (F := Ideal) S1024x64 .f32 0x00000000#32) (ix2 q j)
      = ∑ k : Fin 4096, l (ix2 q k) * r (ix2 k j) := by
  simp only [matmul]
  rw [Ideal.matmul_constant_zero_apply, ← Equiv.sum_comp (contrEquiv1 dot_S1024x4096_S4096x64_S1024x64_1_0_0_1_n_n 4096 rfl rfl).symm]
  refine Finset.sum_congr rfl fun k _ => ?_
  have hk := contrEquiv1_symm_val dot_S1024x4096_S4096x64_S1024x64_1_0_0_1_n_n 4096 rfl rfl k
  have el : dot_S1024x4096_S4096x64_S1024x64_1_0_0_1_n_n.lhsIdx (ix2 q j) ((contrEquiv1 dot_S1024x4096_S4096x64_S1024x64_1_0_0_1_n_n 4096 rfl rfl).symm k) = ix2 q k := funext fun a => Fin.ext (by
    match a with
    | ⟨0, _⟩ => exact lhs_axis0 _ _
    | ⟨1, _⟩ => exact (lhs_axis1 _ _).trans hk)
  have er : dot_S1024x4096_S4096x64_S1024x64_1_0_0_1_n_n.rhsIdx (ix2 q j) ((contrEquiv1 dot_S1024x4096_S4096x64_S1024x64_1_0_0_1_n_n 4096 rfl rfl).symm k) = ix2 k j := funext fun a => Fin.ext (by
    match a with
    | ⟨0, _⟩ => exact (rhs_axis0 _ _).trans hk
    | ⟨1, _⟩ => exact rhs_axis1 _ _)
  rw [el, er]

end Product

variable (x0 : Vec Ideal S1024x4096 .f32) (x1 : Vec Ideal S4096x64 .bf16) (x2 : Vec Ideal S1x64 .f32)
  (W : WShape.Idx → EReal) (b : BShape.Idx → EReal)

/-- Token `q` of the block, as a feature row. -/
abbrev blkRow (q : Fin 1024) : Fin 4096 → EReal := fun k => x0 (ix2 q k)

/-! ## The body's stages -/

/-- The block's logits: the tokens against the transposed weights, plus the bias row copied down the block. -/
def blkLogits : FVec Ideal S1024x64 .f32 :=
  addf (matmul dot_S1024x4096_S4096x64_S1024x64_1_0_0_1_n_n none (truncf .bf16 x0 bitsLt_bf16_f32 : FVec Ideal S1024x4096 .bf16)
      (shapeCast S4096x64 x1 shapeCasts_S4096x64_S4096x64 : FVec Ideal S4096x64 .bf16) (constant S1024x64 .f32 0x00000000#32))
    (broadcastTo S1024x64 (shapeCast S1x64 x2 shapeCasts_S1x64_S1x64) broadcasts_S1x64_S1024x64)

/-- Each row's largest logit, copied along the row. -/
def blkMax : FVec Ideal S1024x64 .f32 :=
  broadcastTo S1024x64 (shapeCast S1024x1
    (multiReduction .maximumf [1] S1024 (blkLogits x0 x1 x2) 0xFF800000#32 reduces_S1024x64_S1024 (.inl rfl) rfl)
    shapeCasts_S1024_S1024x1) broadcasts_S1024x1_S1024x64

/-- The shifted exponentials. -/
def blkExp : FVec Ideal S1024x64 .f32 := exp (subf (blkLogits x0 x1 x2) (blkMax x0 x1 x2))

/-- Each row's sum of shifted exponentials, copied along the row. -/
def blkDenom : FVec Ideal S1024x64 .f32 :=
  broadcastTo S1024x64 (shapeCast S1024x1
    (multiReduction .add [1] S1024 (blkExp x0 x1 x2) 0x00000000#32 reduces_S1024x64_S1024 (.inl rfl) rfl)
    shapeCasts_S1024_S1024x1) broadcasts_S1024x1_S1024x64

/-- The first stored value is the quotient of the last two stages. -/
theorem pay1_eq_stages : k0_pay1 (F := Ideal) x0 x1 x2 = divf (blkExp x0 x1 x2) (blkDenom x0 x1 x2) := rfl

/-- The logits stage at (token `q`, expert `j`) is the router's logit for that token's row. -/
theorem blkLogits_apply (hW : ∀ (k : Fin 4096) (j : Fin 64), x1 (ix2 k j) = W (ix2 j k)) (hb : ∀ j : Fin 64, x2 (ix2 0 j) = b (ix1 j))
    (q : Fin 1024) (j : Fin 64) :
    blkLogits x0 x1 x2 (ix2 q j) = logit W b (blkRow x0 q) j := by
  unfold blkLogits logit
  rw [addf_apply, product_apply, shapeCast_self, shapeCast_self, broadcastTo_1b_ab_apply, hb]
  refine congrArg (· + b (ix1 j)) (Finset.sum_congr rfl fun k _ => ?_)
  rw [truncf_apply, hW]

/-- The maximum stage at (token `q`, any expert) is the row's running maximum of the logits from −∞. -/
theorem blkMax_apply (hW : ∀ (k : Fin 4096) (j : Fin 64), x1 (ix2 k j) = W (ix2 j k)) (hb : ∀ j : Fin 64, x2 (ix2 0 j) = b (ix1 j))
    (q : Fin 1024) (j : Fin 64) :
    blkMax x0 x1 x2 (ix2 q j) = rowMax W b (blkRow x0 q) := by
  unfold blkMax rowMax
  refine (column_bcast_apply _ _ _ q j).trans ?_
  refine (lane_max_apply _ _ _ _ q).trans ?_
  exact congrArg (fun f => (Finset.univ : Finset (Fin 64)).fold max negInf f) (funext fun j' => blkLogits_apply x0 x1 x2 W b hW hb q j')

/-- The exponential stage at (token `q`, expert `j`) is the shifted exponential of that logit. -/
theorem blkExp_apply (hW : ∀ (k : Fin 4096) (j : Fin 64), x1 (ix2 k j) = W (ix2 j k)) (hb : ∀ j : Fin 64, x2 (ix2 0 j) = b (ix1 j))
    (q : Fin 1024) (j : Fin 64) :
    blkExp x0 x1 x2 (ix2 q j) = expo W b (blkRow x0 q) j := by
  show Ideal.exp (blkLogits x0 x1 x2 (ix2 q j) - blkMax x0 x1 x2 (ix2 q j)) = _
  rw [blkLogits_apply x0 x1 x2 W b hW hb, blkMax_apply x0 x1 x2 W b hW hb]
  rfl

/-- The denominator stage at (token `q`, any expert) is the row's sum of shifted exponentials. -/
theorem blkDenom_apply (hW : ∀ (k : Fin 4096) (j : Fin 64), x1 (ix2 k j) = W (ix2 j k)) (hb : ∀ j : Fin 64, x2 (ix2 0 j) = b (ix1 j))
    (q : Fin 1024) (j : Fin 64) :
    blkDenom x0 x1 x2 (ix2 q j) = denom W b (blkRow x0 q) := by
  unfold blkDenom denom
  refine (column_bcast_apply _ _ _ q j).trans ?_
  refine (lane_sum_apply _ _ _ _ q).trans ?_
  exact Finset.sum_congr rfl fun j' _ => blkExp_apply x0 x1 x2 W b hW hb q j'

/-- The first stored value at (token `q`, expert `j`) is the router's probability for that token's row, given that
    `x1` holds the weights transposed and `x2` the bias. -/
theorem pay1_apply (hW : ∀ (k : Fin 4096) (j : Fin 64), x1 (ix2 k j) = W (ix2 j k)) (hb : ∀ j : Fin 64, x2 (ix2 0 j) = b (ix1 j))
    (q : Fin 1024) (j : Fin 64) :
    k0_pay1 (F := Ideal) x0 x1 x2 (ix2 q j) = prob W b (blkRow x0 q) j := by
  rw [pay1_eq_stages]
  show Ideal.div (blkExp x0 x1 x2 (ix2 q j)) (blkDenom x0 x1 x2 (ix2 q j)) = _
  rw [blkExp_apply x0 x1 x2 W b hW hb, blkDenom_apply x0 x1 x2 W b hW hb]
  rfl

/-- The second stored value at expert `j` is the sum over the block's tokens of that expert's `plogp`. -/
theorem pay2_apply (hW : ∀ (k : Fin 4096) (j : Fin 64), x1 (ix2 k j) = W (ix2 j k)) (hb : ∀ j : Fin 64, x2 (ix2 0 j) = b (ix1 j))
    (j : Fin 64) :
    k0_pay2 (F := Ideal) x0 x1 x2 (ix3 0 0 j) = ∑ q : Fin 1024, plogp W b (blkRow x0 q) j := by
  unfold k0_pay2
  refine (unit_unit_cast_apply _ _ _ j).trans ?_
  refine (row_sum_apply _ _ _ _ j).trans ?_
  refine Finset.sum_congr rfl fun q _ => ?_
  show k0_pay1 (F := Ideal) x0 x1 x2 (ix2 q j) * Ideal.log (k0_pay1 (F := Ideal) x0 x1 x2 (ix2 q j) + eps) = _
  rw [pay1_apply x0 x1 x2 W b hW hb]
  rfl

end Cert.KernelIdeal.Body

end
-- ==== Proof.KernelValue.lean ====
/-
  What the kernel program leaves in its two results, as the router's functions of the argument arrays (Spec.lean).

  The lines before the kernel transpose the weights and lay the bias out as one row. The kernel runs over 32 grid
  points; point `t` reads tokens 1024 t … 1024 t + 1023, the whole transposed weights and the bias row, and writes
  back (i) rows 1024 t … of the probabilities and (ii) row `t` of a 32 × 1 × 64 array of partial sums of
  prob · log (prob + ε) down the block's tokens. Those blocks tile both arrays, so each ends as one function of the
  arguments. The lines after the kernel add the partial sums up, divide by the number of tokens and negate; adding
  block sums over all blocks adds every token once (Spec.lean, `sum_parts`), which is the mean entropy.
-/
import proofs.«121930_g46153718563472_cont_8to1_c_400_9_alg».proof.Proof.Gen.KernelIdeal.Frame
import proofs.«121930_g46153718563472_cont_8to1_c_400_9_alg».proof.Proof.KernelBody
import proofs.«121930_g46153718563472_cont_8to1_c_400_9_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.SwitchGate

variable (m : (ℓ : Loc nD τ sig) → Buf (Elt Ideal) ℓ) (ρ : Dev nD → PrngReg)

/-- The three argument arrays as launched, on core `c`. -/
abbrev xArr (c : Dev nD) : XShape.Idx → EReal := m ((c : Thread nD τ).loc main_arg0)
abbrev wArr (c : Dev nD) : WShape.Idx → EReal := m ((c : Thread nD τ).loc main_arg1)
abbrev bArr (c : Dev nD) : BShape.Idx → EReal := m ((c : Thread nD τ).loc main_arg2)

/-! ## What the lines before the kernel leave in the kernel's second and third operand -/

/-- The kernel's second operand is the weight matrix transposed (the change of float format is the identity on
    extended reals). -/
theorem wt_eq (c : Dev nD) : V m c main_call0_v1
    = truncf (F := Ideal) .bf16 (transpose S4096x64 [1, 0] (wArr m c) transposes_S64x4096_S4096x64_1_0) bitsLt_bf16_f32 := by
  show StableHlo.after hostOps0 (fun b => m (c, b)) (Proc.devRef .tc main_call0_v1) = _
  after_results
  rfl

/-- Its entry at (feature `k`, expert `j`) is the weight of expert `j` for feature `k`. -/
theorem wt_apply (c : Dev nD) (k : Fin 4096) (j : Fin 64) :
    (V m c main_call0_v1 : S4096x64.Idx → EReal) (ix2 k j) = wArr m c (ix2 j k) := by
  rw [wt_eq]
  show transpose S4096x64 [1, 0] (wArr m c) transposes_S64x4096_S4096x64_1_0 (ix2 k j) = _
  exact transpose_apply [1, 0] (wArr m c) transposes_S64x4096_S4096x64_1_0 (ix2 k j) (ix2 j k) (fun a => match a with
    | ⟨0, _⟩ => rfl
    | ⟨1, _⟩ => rfl)

/-- The kernel's third operand is the bias laid out as one row. -/
theorem b2_eq (c : Dev nD) : V m c main_call0_v2
    = shapeCast S1x64 (bArr m c) shapeCasts_S64_S1x64 := by
  show StableHlo.after hostOps0 (fun b => m (c, b)) (Proc.devRef .tc main_call0_v2) = _
  after_results
  rfl

theorem b2_apply (c : Dev nD) (j : Fin 64) :
    (V m c main_call0_v2 : S1x64.Idx → EReal) (ix2 0 j) = bArr m c (ix1 j) := by
  rw [b2_eq]
  exact shapeCast_apply (bArr m c) shapeCasts_S64_S1x64 (ix2 0 j) (ix1 j) (by
    rw [Shape.rowMajor_val_one, Shape.rowMajor_val_two]; simp)

/-! ## The kernel's blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the token block, the probabilities' block and the partial sums' row move with
    the grid point; the weights and the bias stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The token block at point `t` holds tokens `1024 t … 1024 t + 1023`. -/
theorem xblk_apply (c : Dev nD) (t : Fin cfg0.N) (q : Fin 1024) (k : Fin 4096) (r : Fin 32768) (hr : r.val = t.val * 1024 + q.val) :
    (iblk m c 0 t : S1024x4096.Idx → EReal) (ix2 q k) = xArr m c (ix2 r k) := by
  obtain ⟨e0, e1, -⟩ := idx_facts t
  show V m c main_arg0 (((cfg0.win 0).blk t).view.emb (ix2 q k)) = _
  rw [V_main_arg0]
  refine congrArg (xArr m c) (funext fun a => Fin.ext ?_)
  match a with
  | ⟨0, _⟩ => show win0_0.index t (0 : Fin 2) * 1024 + 1 * q.val = r.val; omega
  | ⟨1, _⟩ => show win0_0.index t (1 : Fin 2) * 4096 + 1 * k.val = k.val; omega

/-- The weights' block is the whole transposed matrix at every point. -/
theorem wblk_apply (c : Dev nD) (t : Fin cfg0.N) (k : Fin 4096) (j : Fin 64) :
    (iblk m c 1 t : S4096x64.Idx → EReal) (ix2 k j) = wArr m c (ix2 j k) := by
  obtain ⟨-, -, e0, e1, -⟩ := idx_facts t
  rw [← wt_apply m c k j]
  show V m c main_call0_v1 (((cfg0.win 1).blk t).view.emb (ix2 k j)) = _
  refine congrArg (V m c main_call0_v1) (funext fun a => Fin.ext ?_)
  match a with
  | ⟨0, _⟩ => show win0_1.index t (0 : Fin 2) * 4096 + 1 * k.val = k.val; omega
  | ⟨1, _⟩ => show win0_1.index t (1 : Fin 2) * 64 + 1 * j.val = j.val; omega

/-- The bias's block is the whole row at every point. -/
theorem bblk_apply (c : Dev nD) (t : Fin cfg0.N) (j : Fin 64) :
    (iblk m c 2 t : S1x64.Idx → EReal) (ix2 0 j) = bArr m c (ix1 j) := by
  obtain ⟨-, -, -, -, e0, e1, -⟩ := idx_facts t
  rw [← b2_apply m c j]
  show V m c main_call0_v2 (((cfg0.win 2).blk t).view.emb (ix2 0 j)) = _
  refine congrArg (V m c main_call0_v2) (funext fun a => Fin.ext ?_)
  match a with
  | ⟨0, _⟩ => show win0_2.index t (0 : Fin 2) * 1 + 1 * 0 = 0; omega
  | ⟨1, _⟩ => show win0_2.index t (1 : Fin 2) * 64 + 1 * j.val = j.val; omega

/-! ## What each point writes back -/

/-- The body's first stored value at any index of its block. -/
theorem pay1_at (x0 : Vec Ideal S1024x4096 .f32) (x1 : Vec Ideal S4096x64 .bf16) (x2 : Vec Ideal S1x64 .f32)
    (W : WShape.Idx → EReal) (b : BShape.Idx → EReal)
    (hW : ∀ (k : Fin 4096) (j : Fin 64), x1 (ix2 k j) = W (ix2 j k)) (hb : ∀ j : Fin 64, x2 (ix2 0 j) = b (ix1 j))
    (y : S1024x64.Idx) : k0_pay1 (F := Ideal) x0 x1 x2 y = prob W b (Body.blkRow x0 (y 0)) (y 1) := by
  exact (congrArg (k0_pay1 (F := Ideal) x0 x1 x2) (eq_ix2 y)).trans (Body.pay1_apply x0 x1 x2 W b hW hb (y 0) (y 1))

/-- The body's second stored value at any index of its one row. -/
theorem pay2_at (x0 : Vec Ideal S1024x4096 .f32) (x1 : Vec Ideal S4096x64 .bf16) (x2 : Vec Ideal S1x64 .f32)
    (W : WShape.Idx → EReal) (b : BShape.Idx → EReal)
    (hW : ∀ (k : Fin 4096) (j : Fin 64), x1 (ix2 k j) = W (ix2 j k)) (hb : ∀ j : Fin 64, x2 (ix2 0 j) = b (ix1 j))
    (y : S1x1x64.Idx) : k0_pay2 (F := Ideal) x0 x1 x2 y = ∑ q : Fin 1024, plogp W b (Body.blkRow x0 q) (y 2) := by
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  exact (congrArg (k0_pay2 (F := Ideal) x0 x1 x2) hy).trans (Body.pay2_apply x0 x1 x2 W b hW hb (y 2))

/-- Point `t` writes back, as its block of the first result, the probabilities of its 1024 tokens. -/
theorem flushed3_eq (c : Dev nD) (t : Fin cfg0.N) :
    (dats m 0 c).flushed 3 t = ((cfg0.win 3).blk t).view.read (Elt Ideal) (probs (xArr m c) (wArr m c) (bArr m c)) := by
  show (cfg0.win 3).cut (grid0.coords t) ((dats m 0 c).after 3 t) = _
  rw [after0_3]
  unfold out0_3
  rw [View.canon_unit_zero hz2]
  simp only [View.ld_unit_zero (S := S1024x4096) hz2, View.ld_unit_zero (S := S4096x64) hz2, View.ld_unit_zero (S := S1x64) hz2]
  funext y
  obtain ⟨-, -, -, -, -, -, e0, e1, -⟩ := idx_facts t
  show k0_pay1 (F := Ideal) (iblk m c 0 t) (iblk m c 1 t) (iblk m c 2 t) y
    = probs (xArr m c) (wArr m c) (bArr m c) (((cfg0.win 3).blk t).view.emb y)
  refine (pay1_at (iblk m c 0 t) (iblk m c 1 t) (iblk m c 2 t) (wArr m c) (bArr m c)
    (wblk_apply m c t) (bblk_apply m c t) y).trans ?_
  unfold probs
  have hj : (((cfg0.win 3).blk t).view.emb y) 1 = y 1 := Fin.ext (by
    show win0_3.index t (1 : Fin 2) * 64 + 1 * (y 1).val = (y 1).val; omega)
  have hrow : Body.blkRow (iblk m c 0 t) (y 0) = xrow (xArr m c) ((((cfg0.win 3).blk t).view.emb y) 0) := funext fun k =>
    xblk_apply m c t (y 0) k _ (by
      show win0_3.index t (0 : Fin 2) * 1024 + 1 * (y 0).val = t.val * 1024 + (y 0).val; omega)
  rw [hj, hrow]

/-- Point `t` writes back, as its row of the partial sums, the sums of `plogp` over its 1024 tokens. -/
theorem flushed4_eq (c : Dev nD) (t : Fin cfg0.N) :
    (dats m 0 c).flushed 4 t = ((cfg0.win 4).blk t).view.read (Elt Ideal) (parts (xArr m c) (wArr m c) (bArr m c)) := by
  show (cfg0.win 4).cut (grid0.coords t) ((dats m 0 c).after 4 t) = _
  rw [after0_4]
  unfold out0_4
  rw [View.canon_unit_zero hz3]
  simp only [View.ld_unit_zero (S := S1024x4096) hz2, View.ld_unit_zero (S := S4096x64) hz2, View.ld_unit_zero (S := S1x64) hz2]
  funext y
  obtain ⟨-, -, -, -, -, -, -, -, e0, e1, e2⟩ := idx_facts t
  show k0_pay2 (F := Ideal) (iblk m c 0 t) (iblk m c 1 t) (iblk m c 2 t) y
    = parts (xArr m c) (wArr m c) (bArr m c) (((cfg0.win 4).blk t).view.emb y)
  refine (pay2_at (iblk m c 0 t) (iblk m c 1 t) (iblk m c 2 t) (wArr m c) (bArr m c)
    (wblk_apply m c t) (bblk_apply m c t) y).trans ?_
  unfold parts
  have hj : (((cfg0.win 4).blk t).view.emb y) 2 = y 2 := Fin.ext (by
    show win0_4.index t (2 : Fin 3) * 64 + 1 * (y 2).val = (y 2).val; omega)
  rw [hj]
  refine Finset.sum_congr rfl fun q _ => ?_
  have hrow : Body.blkRow (iblk m c 0 t) q = xrow (xArr m c) (blockRow ((((cfg0.win 4).blk t).view.emb y) 0) q) := funext fun k =>
    xblk_apply m c t q k _ (by
      have hy0 : (y 0).val < 1 := (y 0).isLt
      show (win0_4.index t (0 : Fin 3) * 1 + 1 * (y 0).val) * 1024 + q.val = t.val * 1024 + q.val
      omega)
  rw [hrow]

/-! ## The blocks tile the two result arrays -/

theorem mem_blk3 (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0_0).slice (win0_3.rect t)).set ↔ _
  rw [View.set_slice_whole, Rect.mem_set_unit]
  exact Iff.rfl

theorem mem_blk4 (t : Fin cfg0.N) (i : S32x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_call0_v3_1).slice (win0_4.rect t)).set ↔ _
  rw [View.set_slice_whole, Rect.mem_set_unit]
  exact Iff.rfl

/-- Token `r` lies in the block of point `r / 1024`. -/
theorem cover3 (i : S32768x64.Idx) : ∃ t : Fin cfg0.N, (cfg0.win 3).flush t = true ∧ i ∈ ((cfg0.win 3).blk t).view.set := by
  have hN : cfg0.N = 32 := N_0
  have hi0 : (i 0).val < 32768 := (i 0).isLt
  have hi1 : (i 1).val < 64 := (i 1).isLt
  have ht : (i 0).val / 1024 < cfg0.N := by omega
  obtain ⟨-, -, -, -, -, -, e0, e1, -⟩ := idx_facts ⟨(i 0).val / 1024, ht⟩
  refine ⟨⟨(i 0).val / 1024, ht⟩, flush0_3 _, ?_⟩
  rw [mem_blk3]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    have e0' : win0_3.index ⟨(i 0).val / 1024, ht⟩ (0 : Fin 2) = (i 0).val / 1024 := e0
    omega
  | ⟨1, _⟩ =>
    show win0_3.index ⟨(i 0).val / 1024, ht⟩ (1 : Fin 2) * 64 ≤ (i 1).val ∧ (i 1).val < win0_3.index ⟨(i 0).val / 1024, ht⟩ (1 : Fin 2) * 64 + 64
    omega

/-- Row `t` of the partial sums is the block of point `t`. -/
theorem cover4 (i : S32x1x64.Idx) : ∃ t : Fin cfg0.N, (cfg0.win 4).flush t = true ∧ i ∈ ((cfg0.win 4).blk t).view.set := by
  have hN : cfg0.N = 32 := N_0
  have hi0 : (i 0).val < 32 := (i 0).isLt
  have hi1 : (i 1).val < 1 := (i 1).isLt
  have hi2 : (i 2).val < 64 := (i 2).isLt
  have ht : (i 0).val < cfg0.N := by omega
  obtain ⟨-, -, -, -, -, -, -, -, e0, e1, e2⟩ := idx_facts ⟨(i 0).val, ht⟩
  refine ⟨⟨(i 0).val, ht⟩, flush0_4 _, ?_⟩
  rw [mem_blk4]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    have e0' : win0_4.index ⟨(i 0).val, ht⟩ (0 : Fin 3) = (i 0).val := e0
    omega
  | ⟨1, _⟩ =>
    show win0_4.index ⟨(i 0).val, ht⟩ (1 : Fin 3) * 1 ≤ (i 1).val ∧ (i 1).val < win0_4.index ⟨(i 0).val, ht⟩ (1 : Fin 3) * 1 + 1
    omega
  | ⟨2, _⟩ =>
    show win0_4.index ⟨(i 0).val, ht⟩ (2 : Fin 3) * 64 ≤ (i 2).val ∧ (i 2).val < win0_4.index ⟨(i 0).val, ht⟩ (2 : Fin 3) * 64 + 64
    omega

/-- After the kernel the first result array holds every token's probabilities, -/
theorem final3 (c : Dev nD) : (dats m 0 c).arrAt 3 cfg0.N = probs (xArr m c) (wArr m c) (bArr m c) :=
  (dats m 0 c).arrAt_eq_of_cover 3 _ (fun t _ => flushed3_eq m c t) cover3

/-- and the kernel's second output every block's partial sums. -/
theorem final4 (c : Dev nD) : (dats m 0 c).arrAt 4 cfg0.N = parts (xArr m c) (wArr m c) (bArr m c) :=
  (dats m 0 c).arrAt_eq_of_cover 4 _ (fun t _ => flushed4_eq m c t) cover4

/-! ## The lines after the kernel -/

/-- What the lines after the kernel make of the partial sums: minus their total over the number of tokens. -/
def meanNeg (p : S32x1x64.Idx → EReal) : S_.Idx → EReal :=
  Host.negf (F := Ideal) (Host.divf (Host.reduceAdd p (constant (F := Ideal) S_ .f32 0x00000000#32) reducesTo_S32x1x64_S_d0_1_2 h_S_)
    (constant (F := Ideal) S_ .f32 0x47000000#32))

theorem meanNeg_apply (p : S32x1x64.Idx → EReal) (i : S_.Idx) : meanNeg p i = -(Ideal.div (∑ i, p i) nTokens) := by
  show FloatOps.hostNegf (FloatOps.hostDivf (Host.reduceAdd (F := Ideal) p (constant (F := Ideal) S_ .f32 0x00000000#32) reducesTo_S32x1x64_S_d0_1_2 h_S_ i)
    (Ideal.ofBits .f32 0x47000000#32)) = _
  simp only [Host.reduceAdd, Ideal.hostReduceAdd_def]
  rw [Ideal.hostReduceAdd_total reducesTo_S32x1x64_S_d0_1_2 (fun b => b.elim0)]
  simp only [Ideal.hostNegf_def, Ideal.negf_def, Ideal.hostDivf_def, constant, Ideal.ofBits_def, Ideal.ofBits_zero_f32, zero_add]

/-- The second result: the lines after the kernel add up the partial sums, which adds every token's and expert's term
    once, divide by the number of tokens and negate. -/
theorem tail_eq (c : Dev nD) :
    Pipeline.afterTail₀ cfgs (dats m) 0 (V0 m) [hostOps1] c main_v0_1 = fun _ => entropy (xArr m c) (wArr m c) (bArr m c) := by
  have hparts : Pipeline.withArrays (cfgs 0).spec c (V0 m c) (fun w => (dats m 0 c).arrAt w (cfgs 0).N) (Proc.devRef .tc main_call0_v3_1)
      = parts (xArr m c) (wArr m c) (bArr m c) :=
    (Pipeline.withArrays_arr spec0 launch0.win.arr_inj c _ _ 4).trans (final4 m c)
  unfold Pipeline.afterTail₀
  show StableHlo.after hostOps1 _ (Proc.devRef .tc main_v0_1) = _
  after_results
  show meanNeg (Pipeline.withArrays (cfgs 0).spec c (V0 m c) (fun w => (dats m 0 c).arrAt w (cfgs 0).N) (Proc.devRef .tc main_call0_v3_1)) = _
  rw [hparts]
  funext i
  rw [meanNeg_apply, sum_parts]
  rfl

/-! ## The kernel program's run, read -/

/-- Every weakly fair execution of the kernel program ends with the first result at the probabilities, the second
    at the mean entropy, and the arguments unchanged. -/
theorem run : θ_run defs (onTc (τ := τ) (main (F := Ideal))) ⟨m, fun _ => 0, ρ⟩ fun r => ∀ c : Dev nD,
      r.2.mem ((c : Thread nD τ).loc main_v0_0) = probs (xArr m c) (wArr m c) (bArr m c)
      ∧ r.2.mem ((c : Thread nD τ).loc main_v0_1) = (fun _ => entropy (xArr m c) (wArr m c) (bArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).2 main_v0_1 (Pipeline.mem_restRefs_of main_v0_1 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program's two results are the router's functions of its arguments (Spec.lean).

  The reference computes the logits by one matrix product against the transposed weights, takes each row's maximum
  by a fold of `max` from −∞ (and once more against −∞, which changes nothing), exponentiates the shifted logits,
  normalises by the row sums, and averages −∑ prob · log (prob + ε) over the tokens.
-/
import proofs.«121930_g46153718563472_cont_8to1_c_400_9_alg».proof.Proof.Gen.ReferenceIdeal.Read
import proofs.«121930_g46153718563472_cont_8to1_c_400_9_alg».proof.Proof.Spec
import Idealize.ShloMosaic.Lib.ValueIdx
import Idealize.ShloMosaic.PureOps.Ideal.Laws
import Idealize.ShloMosaic.PureOps.Reduce
import Idealize.ShloMosaic.Lib.ValueIdxRank1
import Mathlib.Data.Finset.Fold

noncomputable section

namespace Cert.ReferenceIdeal.RefValue

open Idealize.ShloMosaic Idealize.ShloMosaic.ValueIdx Cert.ReferenceIdeal Cert.ReferenceIdeal.Read Cert.SwitchGate

variable (x : (⟨S32768x4096, .f32⟩ : BufTy).Contents (Elt Ideal)) (W : (⟨S64x4096, .f32⟩ : BufTy).Contents (Elt Ideal))
  (b : (⟨S64, .f32⟩ : BufTy).Contents (Elt Ideal))

/-! ### The index maps of the layout operations, at coordinates -/

/-- The left operand of the matrix product is read at (token, feature). -/
theorem lidx_v1 (r : Fin 32768) (j : Fin 64) (k : Fin 4096) : lidx_main_v1 (ix2 r j) k = ix2 r k :=
  funext fun a => Fin.ext (by match a with | ⟨0, _⟩ => rfl | ⟨1, _⟩ => rfl)

/-- The transposed weights at (feature, expert) are the weights at (expert, feature). -/
theorem ridx_v1 (r : Fin 32768) (j : Fin 64) (k : Fin 4096) : idx_main_v0 (ridx_main_v1 (ix2 r j) k) = ix2 j k :=
  funext fun a => Fin.ext (by match a with | ⟨0, _⟩ => rfl | ⟨1, _⟩ => rfl)

/-- The bias broadcast along the tokens is read at the expert. -/
theorem idx_v3 (r : Fin 32768) (j : Fin 64) : idx_main_v2 (idx_main_v3 (ix2 r j)) = ix1 j :=
  funext fun a => Fin.ext (by match a with | ⟨0, _⟩ => rfl)

/-- A per-token value broadcast along the experts is read at the token. -/
theorem idx_v9 (r : Fin 32768) (j : Fin 64) : idx_main_v8 (idx_main_v9 (ix2 r j)) = ix1 r :=
  funext fun a => Fin.ext (by match a with | ⟨0, _⟩ => rfl)

theorem idx_v14 (r : Fin 32768) (j : Fin 64) : idx_main_v13 (idx_main_v14 (ix2 r j)) = ix1 r :=
  funext fun a => Fin.ext (by match a with | ⟨0, _⟩ => rfl)

/-- A row sum runs over the row's entries. -/
theorem idx_v12 (r : Fin 32768) (k : Fin 64) : idx_main_v12 (ix1 r) k = ix2 r k :=
  funext fun a => Fin.ext (by match a with | ⟨0, _⟩ => rfl | ⟨1, _⟩ => rfl)

theorem idx_v20 (r : Fin 32768) (k : Fin 64) : idx_main_v20 (ix1 r) k = ix2 r k :=
  funext fun a => Fin.ext (by match a with | ⟨0, _⟩ => rfl | ⟨1, _⟩ => rfl)

/-! ### The stages, at coordinates -/

/-- The sum of the matrix product and the broadcast bias is the logit. -/
theorem logit_at (r : Fin 32768) (j : Fin 64) :
    val_main_v4 (F := Ideal) x W b (ix2 r j) = logit W b (xrow x r) j := by
  rw [val_main_v4_apply, val_main_v1_apply, val_main_v3_apply, val_main_v2_apply, idx_v3]
  simp only [val_main_v0_apply, lidx_v1, ridx_v1, Ideal.addf_def]
  rfl

/-- The row of the logits' array over a token is the token's logits. -/
theorem logit_row (r : Fin 32768) (h : S32768x64.Reduces [1] S32768) :
    val_main_v4 (F := Ideal) x W b ∘ h.lift (ix1 r) = logit W b (xrow x r) := by
  funext j
  have e : h.lift (ix1 r) j = ix2 r j :=
    funext fun a => Fin.ext (by match a with | ⟨0, _⟩ => rfl | ⟨1, _⟩ => rfl)
  show val_main_v4 (F := Ideal) x W b (h.lift (ix1 r) j) = _
  rw [e]
  exact logit_at x W b r j

/-- The reduction with a maximum body is the running maximum from −∞ over the token's logits. -/
theorem fold_at (r : Fin 32768) :
    val_main_v5 (F := Ideal) x W b (ix1 r) = rowMax W b (xrow x r) := by
  unfold val_main_v5
  rw [Host.reduce_eq_fold_single (FloatOps.maximumf (F := Ideal) (φ := .f32)) (val_main_v4 (F := Ideal) x W b) (val_main_cst (F := Ideal))
    Gen.reducesTo_S32768x64_S32768_d1 (by decide) Gen.h_S_ (ix1 r), logit_row]
  rfl

/-- Taking the maximum with −∞ once more changes nothing: the running maximum started there. -/
theorem rowMax_at (r : Fin 32768) :
    val_main_v7 (F := Ideal) x W b (ix1 r) = rowMax W b (xrow x r) := by
  rw [val_main_v7_apply, val_main_v6_apply, val_main_cst_0_apply, fold_at]
  simp only [Ideal.maximumf_def, Ideal.ofBits_def]
  exact max_eq_right ((Finset.le_fold_max _).2 (Or.inl le_rfl))

/-- The exponential of the logit shifted by the row's maximum. -/
theorem expo_at (r : Fin 32768) (j : Fin 64) :
    val_main_v11 (F := Ideal) x W b (ix2 r j) = expo W b (xrow x r) j := by
  rw [val_main_v11_apply, val_main_v10_apply, val_main_v9_apply, val_main_v8_apply, idx_v9, rowMax_at, logit_at]
  simp only [Ideal.hostUnary_exp_def, Ideal.subf_def]
  rfl

/-- The row sum of the exponentials, from the initial value zero. -/
theorem denom_at (r : Fin 32768) :
    val_main_v12 (F := Ideal) x W b (ix1 r) = denom W b (xrow x r) := by
  rw [val_main_v12_apply, val_main_cst_1_apply]
  simp only [idx_v12, expo_at, Ideal.ofBits_def, Ideal.ofBits_zero_f32, zero_add]
  rfl

/-- The quotient of the exponential by the row sum. -/
theorem prob_at (r : Fin 32768) (j : Fin 64) :
    val_main_v15 (F := Ideal) x W b (ix2 r j) = prob W b (xrow x r) j := by
  rw [val_main_v15_apply, val_main_v14_apply, val_main_v13_apply, idx_v14, denom_at, expo_at]
  simp only [Ideal.hostDivf_def]
  rfl

/-- The probability times the logarithm of the probability plus the small constant. -/
theorem plogp_at (r : Fin 32768) (j : Fin 64) :
    val_main_v19 (F := Ideal) x W b (ix2 r j) = plogp W b (xrow x r) j := by
  rw [val_main_v19_apply, val_main_v18_apply, val_main_v17_apply, val_main_v16_apply, val_main_cst_2_apply, prob_at]
  simp only [Ideal.mulf_def, Ideal.hostUnary_log_def, Ideal.addf_def, Ideal.ofBits_def]
  rfl

/-- The row sum of those terms, from the initial value zero. -/
theorem plogpRow_at (r : Fin 32768) :
    val_main_v20 (F := Ideal) x W b (ix1 r) = ∑ j : Fin 64, plogp W b (xrow x r) j := by
  rw [val_main_v20_apply, val_main_cst_3_apply]
  simp only [idx_v20, plogp_at, Ideal.ofBits_def, Ideal.ofBits_zero_f32, zero_add]

/-- The sum of the row sums over every token, from the initial value zero. -/
theorem plogpTotal_at (i : S_.Idx) :
    val_main_v21 (F := Ideal) x W b i = plogpTotal x W b := by
  rw [val_main_v21_apply, val_main_cst_4_apply, Ideal.ofBits_def, Ideal.ofBits_zero_f32, zero_add,
    ← Equiv.sum_comp (idxEquiv1 (n := 32768)).symm]
  unfold plogpTotal
  exact Finset.sum_congr rfl fun r _ => plogpRow_at x W b r

/-- The first result, the array of probabilities. -/
theorem probs_eq : val_main_v15 (F := Ideal) x W b = probs x W b := by
  funext i
  obtain ⟨r, j, rfl⟩ : ∃ (r : Fin 32768) (j : Fin 64), i = ix2 r j := ⟨i 0, i 1, eq_ix2 i⟩
  exact prob_at x W b r j

/-- The second result, the mean entropy, at the one index of a rank-0 array. -/
theorem entropy_eq : val_main_v23 (F := Ideal) x W b = fun _ => entropy x W b := by
  funext i
  rw [val_main_v23_apply, val_main_v22_apply, plogpTotal_at, val_main_cst_5_apply]
  simp only [Ideal.hostNegf_def, Ideal.negf_def, Ideal.hostDivf_def, Ideal.ofBits_def]
  rfl

end Cert.ReferenceIdeal.RefValue

end
-- ==== Proof.lean ====
/-
  The router kernel against its reference, over the extended reals.

  Both programs compute, for 32768 tokens of 4096 features, 64 experts' weights and a bias,
    probs[r, j] = softmax_j ((x · Wᵀ)[r, j] + b[j])      and      entropy = −(∑_r ∑_j probs · log (probs + ε)) / 32768.
  The kernel works block by block (1024 tokens a grid point, a matrix product into a zero accumulator, the row
  maximum and row sum as lane reductions) and leaves per-block partial sums that the lines after it add up; the
  reference does it in one piece. On the extended reals a change of float format is the identity, a product into a
  zero accumulator is the plain sum of products, and finite sums may be regrouped freely, so both results are the
  same functions of the arguments (Spec.lean): KernelValue.lean reads the kernel program's run, RefValue.lean the
  reference's. No law used needs the inputs to be finite, so the precondition is never opened.
  The three frames are the generated ones (the reference's is its generated run with the results dropped), and the
  idealization rewrote nothing, so `preserves` is trivial.
-/
import proofs.«121930_g46153718563472_cont_8to1_c_400_9_alg».proof.Defs
import proofs.«121930_g46153718563472_cont_8to1_c_400_9_alg».proof.Proof.Gen.Kernel
import proofs.«121930_g46153718563472_cont_8to1_c_400_9_alg».proof.Proof.Gen.Kernel.Skeleton
import proofs.«121930_g46153718563472_cont_8to1_c_400_9_alg».proof.Proof.Gen.Kernel.Launch
import proofs.«121930_g46153718563472_cont_8to1_c_400_9_alg».proof.Proof.Gen.Kernel.Points
import proofs.«121930_g46153718563472_cont_8to1_c_400_9_alg».proof.Proof.Gen.Kernel.Frame
import proofs.«121930_g46153718563472_cont_8to1_c_400_9_alg».proof.Proof.Gen.KernelIdeal
import proofs.«121930_g46153718563472_cont_8to1_c_400_9_alg».proof.Proof.Gen.KernelIdeal.Skeleton
import proofs.«121930_g46153718563472_cont_8to1_c_400_9_alg».proof.Proof.Gen.KernelIdeal.Launch
import proofs.«121930_g46153718563472_cont_8to1_c_400_9_alg».proof.Proof.Gen.KernelIdeal.Points
import proofs.«121930_g46153718563472_cont_8to1_c_400_9_alg».proof.Proof.Gen.KernelIdeal.Frame
import proofs.«121930_g46153718563472_cont_8to1_c_400_9_alg».proof.Proof.Gen.ReferenceIdeal
import proofs.«121930_g46153718563472_cont_8to1_c_400_9_alg».proof.Proof.Gen.Pre_finite_inputs
import proofs.«121930_g46153718563472_cont_8to1_c_400_9_alg».proof.Proof.Gen.ReferenceIdeal.Run
import proofs.«121930_g46153718563472_cont_8to1_c_400_9_alg».proof.Proof.Gen.ReferenceIdeal.Read
import proofs.«121930_g46153718563472_cont_8to1_c_400_9_alg».proof.Proof.KernelValue
import proofs.«121930_g46153718563472_cont_8to1_c_400_9_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the probabilities and the mean entropy of the same arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.probs_eq,
      (hagree c).1, (hagree c).2.1, (hagree c).2.2]
  · rw [Cert.ReferenceIdeal.Read.val_main_v23_eq, Cert.ReferenceIdeal.RefValue.entropy_eq,
      (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
